-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : FVec F S128x64 .f32) (main_arg2 : FVec F S64 .f32) (main_arg3 : FVec F S64x64 .f32) (main_arg4 : FVec F S64 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S10000x128 : Shape := ⟨2, ![10000, 128]⟩
abbrev S10000x1 : Shape := ⟨2, ![10000, 1]⟩
abbrev S10000x64 : Shape := ⟨2, ![10000, 64]⟩
abbrev S800000x64 : Shape := ⟨2, ![800000, 64]⟩
abbrev S1x64 : Shape := ⟨2, ![1, 64]⟩

abbrev nBuf : Space → Nat
  | .hbm => 59
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S_, .f32⟩
  | .hbm, ⟨38, _⟩ => ⟨S50000x64, .f32⟩
  | .hbm, ⟨39, _⟩ => ⟨S800000x1, .i32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S1x64, .f32⟩
  | .hbm, ⟨58, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x1, .f32⟩
  | .local _ .vmem, ⟨18, _⟩ => ⟨S10000x1, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  scatter_S50000_S800000x1_S800000_n_0_0_1_wf : ScatterDims.WF S50000 S800000x1 S800000 [] [0] [0] 1
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S50000x1.size a
  hwx0_2 : ∀ i : grid0.Coords, EltTy.bits .f32 = 32 ∨ (Rect.block (s := S50000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S50000x1.size a
  hwx2_2 : ∀ i : grid2.Coords, EltTy.bits .f32 = 32 ∨ (Rect.block (s := S50000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S50000x64.size a
  hwx2_3 : ∀ i : grid2.Coords, EltTy.bits .f32 = 32 ∨ (Rect.block (s := S50000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S50000x1.size a
  hwx3_1 : ∀ i : grid3.Coords, EltTy.bits .f32 = 32 ∨ (Rect.block (s := S50000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S50000x64.size a
  hwx3_3 : ∀ i : grid3.Coords, EltTy.bits .f32 = 32 ∨ (Rect.block (s := S50000x64) S10000x64.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x64 : Shape := ⟨2, ![50000, 64]⟩
abbrev S50000x1 : Shape := ⟨2, ![50000, 1]⟩
abbrev S800000x64 : Shape := ⟨2, ![800000, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x64, .f32⟩
  | .hbm, ⟨26, _⟩ => ⟨S50000x1, .f32⟩
  | .hbm, ⟨27, _⟩ => ⟨S50000x64, .f32⟩
  | .hbm, ⟨28, _⟩ => ⟨S50000x64, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S50000x1, .f32⟩
  | .hbm, ⟨43, _⟩ => ⟨S50000x64, .f32⟩
  | .hbm, ⟨44, _⟩ => ⟨S50000x64, .f32⟩
  | .hbm, ⟨45, _⟩ => ⟨S1x64, .f32⟩
  | .hbm, ⟨46, _⟩ => ⟨S50000x64, .f32⟩
  | .hbm, ⟨47, _⟩ => ⟨S50000x64, .f32⟩
  | .hbm, ⟨48, _⟩ => ⟨S_, .f32⟩
  | .hbm, ⟨49, _⟩ => ⟨S50000x64, .f32⟩
  | .hbm, ⟨50, _⟩ => ⟨S50000x64, .f32⟩
  | .hbm, ⟨51, _⟩ => ⟨S50000x64, .f32⟩
  | .hbm, ⟨52, _⟩ => ⟨S50000x1, .f32⟩
  | .hbm, ⟨53, _⟩ => ⟨S50000x64, .f32⟩
  | .hbm, ⟨54, _⟩ => ⟨S50000x64, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x64, .f32⟩
  | .hbm, ⟨64, _⟩ => ⟨S_, .f32⟩
  | .hbm, ⟨65, _⟩ => ⟨S50000x64, .f32⟩
  | .hbm, ⟨66, _⟩ => ⟨S800000x1, .i32⟩
  | .hbm, ⟨67, _⟩ => ⟨S50000x64, .f32⟩
  | .hbm, ⟨68, _⟩ => ⟨S50000x1, .f32⟩
  | .hbm, ⟨69, _⟩ => ⟨S50000x64, .f32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Spec.lean ====
import Idealize.ShloMosaic.PureOps.Ideal.Laws
import Idealize.ShloMosaic.Lib.ValueIdx
import Idealize.ShloMosaic.Lib.Pipeline.Value
import Idealize.ShloMosaic.Lib.ValueLayout
import proofs.«125446_j71244917506158_1_alg».proof.Proof.LibPlainDot

/-!
  The two layer shapes of a graph convolution, as whole-array functions over the extended reals.

  * `linScale x w dc`: the matrix product x·w with row p scaled by the column entry dc(p, 0):
    entry (p, q) is (∑ₖ x(p, k) · w(k, q)) · dc(p, 0).
  * `epi a dc br`: row p of a scaled by dc(p, 0), plus the row vector br: entry (p, q) is a(p, q) · dc(p, 0) + br(0, q).
  * `epiRelu`: the same, followed by the maximum with the value of the zero word.

  Each is shown to be what the vector operations of a row block compute (matrix unit product into a zero accumulator,
  column broadcast, pointwise product, sum and maximum) and what the host's whole-array operations compute
  (dot_general, broadcast_in_dim, multiply, add, maximum). A row block of the whole-array function is the function of
  the row blocks of its operands, because entry (p, q) reads only row p of x, a and dc.
-/

open scoped BigOperators

noncomputable section

namespace Cert.Layer

open Idealize.ShloMosaic Idealize.ShloMosaic.ValueIdx

variable {M K N : Nat}

/-- The matrix product x·w, row p scaled by dc(p, 0). -/
def linScale (x : (⟨2, ![M, K]⟩ : Shape).Idx → EReal) (w : (⟨2, ![K, N]⟩ : Shape).Idx → EReal)
    (dc : (⟨2, ![M, 1]⟩ : Shape).Idx → EReal) : (⟨2, ![M, N]⟩ : Shape).Idx → EReal :=
  fun j => (∑ k : Fin K, x (ix2 (j 0) k) * w (ix2 k (j 1))) * dc (ix2 (j 0) (0 : Fin 1))

/-- Row p of a scaled by dc(p, 0), plus the row br. -/
def epi (a : (⟨2, ![M, N]⟩ : Shape).Idx → EReal) (dc : (⟨2, ![M, 1]⟩ : Shape).Idx → EReal)
    (br : (⟨2, ![1, N]⟩ : Shape).Idx → EReal) : (⟨2, ![M, N]⟩ : Shape).Idx → EReal :=
  fun j => a j * dc (ix2 (j 0) (0 : Fin 1)) + br (ix2 (0 : Fin 1) (j 1))

/-- `epi` followed by the maximum with the value of the zero word. -/
def epiRelu (a : (⟨2, ![M, N]⟩ : Shape).Idx → EReal) (dc : (⟨2, ![M, 1]⟩ : Shape).Idx → EReal)
    (br : (⟨2, ![1, N]⟩ : Shape).Idx → EReal) : (⟨2, ![M, N]⟩ : Shape).Idx → EReal :=
  fun j => max (epi a dc br j) (Ideal.ofBits .f32 0x00000000#32)

theorem linScale_apply (x : (⟨2, ![M, K]⟩ : Shape).Idx → EReal) (w : (⟨2, ![K, N]⟩ : Shape).Idx → EReal)
    (dc : (⟨2, ![M, 1]⟩ : Shape).Idx → EReal) (p : Fin M) (q : Fin N) :
    linScale x w dc (ix2 p q) = (∑ k : Fin K, x (ix2 p k) * w (ix2 k q)) * dc (ix2 p (0 : Fin 1)) := rfl

theorem epi_apply (a : (⟨2, ![M, N]⟩ : Shape).Idx → EReal) (dc : (⟨2, ![M, 1]⟩ : Shape).Idx → EReal)
    (br : (⟨2, ![1, N]⟩ : Shape).Idx → EReal) (p : Fin M) (q : Fin N) :
    epi a dc br (ix2 p q) = a (ix2 p q) * dc (ix2 p (0 : Fin 1)) + br (ix2 (0 : Fin 1) q) := rfl

theorem epiRelu_apply (a : (⟨2, ![M, N]⟩ : Shape).Idx → EReal) (dc : (⟨2, ![M, 1]⟩ : Shape).Idx → EReal)
    (br : (⟨2, ![1, N]⟩ : Shape).Idx → EReal) (p : Fin M) (q : Fin N) :
    epiRelu a dc br (ix2 p q) = max (a (ix2 p q) * dc (ix2 p (0 : Fin 1)) + br (ix2 (0 : Fin 1) q)) (Ideal.ofBits .f32 0x00000000#32) := rfl

/-! ## Row blocks -/

/-- Entry (p, q) of `linScale` reads row p of x and of dc only. -/
theorem linScale_block {Mb : Nat} (X : (⟨2, ![M, K]⟩ : Shape).Idx → EReal) (w : (⟨2, ![K, N]⟩ : Shape).Idx → EReal)
    (D : (⟨2, ![M, 1]⟩ : Shape).Idx → EReal) (xb : (⟨2, ![Mb, K]⟩ : Shape).Idx → EReal) (db : (⟨2, ![Mb, 1]⟩ : Shape).Idx → EReal)
    (p : Fin Mb) (P : Fin M) (q : Fin N) (hx : ∀ k : Fin K, xb (ix2 p k) = X (ix2 P k))
    (hd : db (ix2 p (0 : Fin 1)) = D (ix2 P (0 : Fin 1))) :
    linScale xb w db (ix2 p q) = linScale X w D (ix2 P q) := by
  rw [linScale_apply, linScale_apply, hd]
  exact congrArg (· * D (ix2 P (0 : Fin 1))) (Finset.sum_congr rfl fun k _ => by rw [hx k])

/-- Entry (p, q) of `epi` reads row p of a and of dc only. -/
theorem epi_block {Mb : Nat} (A : (⟨2, ![M, N]⟩ : Shape).Idx → EReal) (D : (⟨2, ![M, 1]⟩ : Shape).Idx → EReal)
    (br : (⟨2, ![1, N]⟩ : Shape).Idx → EReal) (ab : (⟨2, ![Mb, N]⟩ : Shape).Idx → EReal) (db : (⟨2, ![Mb, 1]⟩ : Shape).Idx → EReal)
    (p : Fin Mb) (P : Fin M) (q : Fin N) (ha : ab (ix2 p q) = A (ix2 P q))
    (hd : db (ix2 p (0 : Fin 1)) = D (ix2 P (0 : Fin 1))) :
    epi ab db br (ix2 p q) = epi A D br (ix2 P q) := by
  rw [epi_apply, epi_apply, ha, hd]

theorem epiRelu_block {Mb : Nat} (A : (⟨2, ![M, N]⟩ : Shape).Idx → EReal) (D : (⟨2, ![M, 1]⟩ : Shape).Idx → EReal)
    (br : (⟨2, ![1, N]⟩ : Shape).Idx → EReal) (ab : (⟨2, ![Mb, N]⟩ : Shape).Idx → EReal) (db : (⟨2, ![Mb, 1]⟩ : Shape).Idx → EReal)
    (p : Fin Mb) (P : Fin M) (q : Fin N) (ha : ab (ix2 p q) = A (ix2 P q))
    (hd : db (ix2 p (0 : Fin 1)) = D (ix2 P (0 : Fin 1))) :
    epiRelu ab db br (ix2 p q) = epiRelu A D br (ix2 P q) := by
  rw [epiRelu_apply, epiRelu_apply, ha, hd]

/-! ## A vector as a column, and as a row -/

/-- A length-M vector cast to an [M, 1] column reads, at (p, u), the vector at p. -/
theorem col_shapeCast_apply {α : Type} (d : (⟨1, ![M]⟩ : Shape).Idx → α) (h : (⟨1, ![M]⟩ : Shape).ShapeCasts ⟨2, ![M, 1]⟩)
    (p : Fin M) (u : Fin 1) : shapeCast ⟨2, ![M, 1]⟩ d h (ix2 p u) = d (ix1 p) :=
  shapeCast_apply d h _ _ (by
    have hu : u.val = 0 := by omega
    rw [Shape.rowMajor_val_two, Shape.rowMajor_val_one]
    show p.val = p.val * 1 + u.val
    rw [hu, Nat.mul_one, Nat.add_zero])

/-- A length-M vector broadcast along axis 0 into an [M, 1] column reads, at (p, u), the vector at p. -/
theorem col_broadcastInDim_apply {α : Type} (d : (⟨1, ![M]⟩ : Shape).Idx → α)
    (h : (⟨1, ![M]⟩ : Shape).BroadcastsInDim ⟨2, ![M, 1]⟩ ![0]) (p : Fin M) (u : Fin 1) :
    broadcastInDim ⟨2, ![M, 1]⟩ ![0] h d (ix2 p u) = d (ix1 p) := by
  refine broadcastInDim_apply ![0] h d (ix2 p u) (ix1 p) fun a => ?_
  match a with
  | ⟨0, _⟩ =>
    show p.val = if M = 1 then 0 else p.val
    split
    · have := p.isLt; omega
    · rfl

/-- The cast and the broadcast of a vector into a column are one array. -/
theorem col_shapeCast_eq_broadcastInDim {α : Type} (d : (⟨1, ![M]⟩ : Shape).Idx → α)
    (h : (⟨1, ![M]⟩ : Shape).ShapeCasts ⟨2, ![M, 1]⟩) (h' : (⟨1, ![M]⟩ : Shape).BroadcastsInDim ⟨2, ![M, 1]⟩ ![0]) :
    shapeCast ⟨2, ![M, 1]⟩ d h = broadcastInDim ⟨2, ![M, 1]⟩ ![0] h' d := by
  funext j
  obtain ⟨p, u, rfl⟩ : ∃ (p : Fin M) (u : Fin 1), j = ix2 p u := ⟨j 0, j 1, eq_ix2 j⟩
  rw [col_shapeCast_apply, col_broadcastInDim_apply]

/-- A length-N vector broadcast along axis 1 into a [1, N] row reads, at (u, q), the vector at q. -/
theorem row_broadcastInDim_apply {α : Type} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) := by
  refine broadcastInDim_apply ![1] h b (ix2 u q) (ix1 q) fun a => ?_
  match a with
  | ⟨0, _⟩ =>
    show q.val = if N = 1 then 0 else q.val
    split
    · have := q.isLt; omega
    · rfl

/-- The cast and the broadcast of a vector into a row are one array. -/
theorem row_shapeCast_eq_broadcastInDim {α : Type} (b : (⟨1, ![N]⟩ : Shape).Idx → α)
    (h : (⟨1, ![N]⟩ : Shape).ShapeCasts ⟨2, ![1, N]⟩) (h' : (⟨1, ![N]⟩ : Shape).BroadcastsInDim ⟨2, ![1, N]⟩ ![1]) :
    shapeCast ⟨2, ![1, N]⟩ b h = broadcastInDim ⟨2, ![1, N]⟩ ![1] h' b := by
  funext j
  obtain ⟨u, q, rfl⟩ : ∃ (u : Fin 1) (q : Fin N), j = ix2 u q := ⟨j 0, j 1, eq_ix2 j⟩
  rw [shapeCast_a_1a_apply, row_broadcastInDim_apply]

/-! ## A column and a row spread over an [M, N] array -/

/-- An [M, 1] column broadcast over N columns reads, at (p, q), the column at (p, 0). -/
theorem broadcastTo_col_apply {α : Type} (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- The host's broadcast of an [M, 1] column along both axes reads, at (p, q), the column at (p, 0). -/
theorem broadcastInDim_col_apply {α : Type} (v : (⟨2, ![M, 1]⟩ : Shape).Idx → α)
    (h : (⟨2, ![M, 1]⟩ : Shape).BroadcastsInDim ⟨2, ![M, N]⟩ ![0, 1]) (p : Fin M) (q : Fin N) :
    broadcastInDim ⟨2, ![M, N]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if M = 1 then 0 else p.val
    split
    · have := p.isLt; omega
    · rfl
  | ⟨1, _⟩ => rfl

/-- The host's broadcast of a [1, N] row along both axes reads, at (p, q), the row at (0, q). -/
theorem broadcastInDim_row_apply {α : Type} (v : (⟨2, ![1, N]⟩ : Shape).Idx → α)
    (h : (⟨2, ![1, N]⟩ : Shape).BroadcastsInDim ⟨2, ![M, N]⟩ ![0, 1]) (p : Fin M) (q : Fin N) :
    broadcastInDim ⟨2, ![M, N]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if N = 1 then 0 else q.val
    split
    · have := q.isLt; omega
    · rfl

/-! ## A row block read through its offset

Block T of row-block size B holds rows T·B … T·B + B − 1: an entry (p, q) of the block function, over operands that are the
blocks of the whole operands at the same offset, is entry (T·B + p, q) of the whole-array function. -/

theorem linScale_at {Mb : Nat} (B T : Nat) (X : (⟨2, ![M, K]⟩ : Shape).Idx → EReal) (w : (⟨2, ![K, N]⟩ : Shape).Idx → EReal)
    (D : (⟨2, ![M, 1]⟩ : Shape).Idx → EReal) (xb : (⟨2, ![Mb, K]⟩ : Shape).Idx → EReal) (db : (⟨2, ![Mb, 1]⟩ : Shape).Idx → EReal)
    (y : (⟨2, ![Mb, N]⟩ : Shape).Idx) (i : (⟨2, ![M, N]⟩ : Shape).Idx)
    (hi0 : (i 0).val = T * B + (y 0).val) (hi1 : (i 1).val = (y 1).val)
    (hx : ∀ (a : (⟨2, ![Mb, K]⟩ : Shape).Idx) (b : (⟨2, ![M, K]⟩ : Shape).Idx),
      (b 0).val = T * B + (a 0).val → (b 1).val = (a 1).val → xb a = X b)
    (hd : ∀ (a : (⟨2, ![Mb, 1]⟩ : Shape).Idx) (b : (⟨2, ![M, 1]⟩ : Shape).Idx),
      (b 0).val = T * B + (a 0).val → (b 1).val = (a 1).val → db a = D b) :
    linScale xb w db y = linScale X w D i := by
  obtain ⟨p, q, rfl⟩ : ∃ (p : Fin Mb) (q : Fin N), y = ix2 p q := ⟨y 0, y 1, eq_ix2 y⟩
  obtain ⟨P, Q, rfl⟩ : ∃ (P : Fin M) (Q : Fin N), i = ix2 P Q := ⟨i 0, i 1, eq_ix2 i⟩
  obtain rfl : Q = q := Fin.ext hi1
  exact linScale_block X w D xb db p P Q (fun k => hx (ix2 p k) (ix2 P k) hi0 rfl) (hd (ix2 p 0) (ix2 P 0) hi0 rfl)

theorem epi_at {Mb : Nat} (B T : Nat) (A : (⟨2, ![M, N]⟩ : Shape).Idx → EReal) (D : (⟨2, ![M, 1]⟩ : Shape).Idx → EReal)
    (br : (⟨2, ![1, N]⟩ : Shape).Idx → EReal) (ab : (⟨2, ![Mb, N]⟩ : Shape).Idx → EReal) (db : (⟨2, ![Mb, 1]⟩ : Shape).Idx → EReal)
    (y : (⟨2, ![Mb, N]⟩ : Shape).Idx) (i : (⟨2, ![M, N]⟩ : Shape).Idx)
    (hi0 : (i 0).val = T * B + (y 0).val) (hi1 : (i 1).val = (y 1).val)
    (ha : ∀ (a : (⟨2, ![Mb, N]⟩ : Shape).Idx) (b : (⟨2, ![M, N]⟩ : Shape).Idx),
      (b 0).val = T * B + (a 0).val → (b 1).val = (a 1).val → ab a = A b)
    (hd : ∀ (a : (⟨2, ![Mb, 1]⟩ : Shape).Idx) (b : (⟨2, ![M, 1]⟩ : Shape).Idx),
      (b 0).val = T * B + (a 0).val → (b 1).val = (a 1).val → db a = D b) :
    epi ab db br y = epi A D br i := by
  obtain ⟨p, q, rfl⟩ : ∃ (p : Fin Mb) (q : Fin N), y = ix2 p q := ⟨y 0, y 1, eq_ix2 y⟩
  obtain ⟨P, Q, rfl⟩ : ∃ (P : Fin M) (Q : Fin N), i = ix2 P Q := ⟨i 0, i 1, eq_ix2 i⟩
  obtain rfl : Q = q := Fin.ext hi1
  exact epi_block A D br ab db p P Q (ha (ix2 p Q) (ix2 P Q) hi0 rfl) (hd (ix2 p 0) (ix2 P 0) hi0 rfl)

theorem epiRelu_at {Mb : Nat} (B T : Nat) (A : (⟨2, ![M, N]⟩ : Shape).Idx → EReal) (D : (⟨2, ![M, 1]⟩ : Shape).Idx → EReal)
    (br : (⟨2, ![1, N]⟩ : Shape).Idx → EReal) (ab : (⟨2, ![Mb, N]⟩ : Shape).Idx → EReal) (db : (⟨2, ![Mb, 1]⟩ : Shape).Idx → EReal)
    (y : (⟨2, ![Mb, N]⟩ : Shape).Idx) (i : (⟨2, ![M, N]⟩ : Shape).Idx)
    (hi0 : (i 0).val = T * B + (y 0).val) (hi1 : (i 1).val = (y 1).val)
    (ha : ∀ (a : (⟨2, ![Mb, N]⟩ : Shape).Idx) (b : (⟨2, ![M, N]⟩ : Shape).Idx),
      (b 0).val = T * B + (a 0).val → (b 1).val = (a 1).val → ab a = A b)
    (hd : ∀ (a : (⟨2, ![Mb, 1]⟩ : Shape).Idx) (b : (⟨2, ![M, 1]⟩ : Shape).Idx),
      (b 0).val = T * B + (a 0).val → (b 1).val = (a 1).val → db a = D b) :
    epiRelu ab db br y = epiRelu A D br i := by
  obtain ⟨p, q, rfl⟩ : ∃ (p : Fin Mb) (q : Fin N), y = ix2 p q := ⟨y 0, y 1, eq_ix2 y⟩
  obtain ⟨P, Q, rfl⟩ : ∃ (P : Fin M) (Q : Fin N), i = ix2 P Q := ⟨i 0, i 1, eq_ix2 i⟩
  obtain rfl : Q = q := Fin.ext hi1
  exact epiRelu_block A D br ab db p P Q (ha (ix2 p Q) (ix2 P Q) hi0 rfl) (hd (ix2 p 0) (ix2 P 0) hi0 rfl)

end Cert.Layer

end
-- ==== Proof.LayerOps.lean ====
import proofs.«125446_j71244917506158_1_alg».proof.Proof.Spec

/-!
  The layer functions `linScale`, `epi`, `epiRelu` as the vector operations a row block's body applies
  (the matrix unit's product of operands narrowed to bf16 — narrowing is the identity on the extended reals — into a zero
  accumulator; a column cast to itself and broadcast over the columns; pointwise product, sum, maximum) and as the
  host's whole-array operations (dot_general; broadcast_in_dim of a column and of a row; multiply, add, maximum).
-/

open scoped BigOperators

noncomputable section

namespace Cert.Layer

open Idealize.ShloMosaic Idealize.ShloMosaic.ValueIdx

variable {M K N : Nat}

/-! ## The host's forms -/

/-- The host's product scaled by a broadcast column is `linScale`. -/
theorem host_linScale (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![K, N]⟩ .f32) (dc : FVec Ideal ⟨2, ![M, 1]⟩ .f32)
    (h : (⟨2, ![M, 1]⟩ : Shape).BroadcastsInDim ⟨2, ![M, N]⟩ ![0, 1]) :
    mulf (Host.dotGeneral d prec x w) (broadcastInDim ⟨2, ![M, N]⟩ ![0, 1] h dc) = linScale x w dc := by
  funext j
  obtain ⟨p, q, rfl⟩ : ∃ (p : Fin M) (q : Fin N), j = ix2 p q := ⟨j 0, j 1, eq_ix2 j⟩
  rw [linScale_apply, mulf_apply, broadcastInDim_col_apply]
  exact congrArg (· * dc (ix2 p (0 : Fin 1)))
    (Cert.Lib.PlainDot.dotGeneral_apply d hlc hrc hln hrn hlb hrb prec .single x w p q)

/-- The host's scaling by a broadcast column plus a broadcast row is `epi`. -/
theorem host_epi (a : FVec Ideal ⟨2, ![M, N]⟩ .f32) (dc : FVec Ideal ⟨2, ![M, 1]⟩ .f32) (br : FVec Ideal ⟨2, ![1, N]⟩ .f32)
    (h : (⟨2, ![M, 1]⟩ : Shape).BroadcastsInDim ⟨2, ![M, N]⟩ ![0, 1])
    (h' : (⟨2, ![1, N]⟩ : Shape).BroadcastsInDim ⟨2, ![M, N]⟩ ![0, 1]) :
    addf (mulf a (broadcastInDim ⟨2, ![M, N]⟩ ![0, 1] h dc)) (broadcastInDim ⟨2, ![M, N]⟩ ![0, 1] h' br) = epi a dc br := by
  funext j
  obtain ⟨p, q, rfl⟩ : ∃ (p : Fin M) (q : Fin N), j = ix2 p q := ⟨j 0, j 1, eq_ix2 j⟩
  rw [epi_apply, addf_apply, mulf_apply, broadcastInDim_col_apply, broadcastInDim_row_apply]

/-- The host's maximum of `epi` with the broadcast zero word is `epiRelu`. -/
theorem host_epiRelu (a : FVec Ideal ⟨2, ![M, N]⟩ .f32) (dc : FVec Ideal ⟨2, ![M, 1]⟩ .f32) (br : FVec Ideal ⟨2, ![1, N]⟩ .f32)
    (h0 : (⟨0, ![]⟩ : Shape).BroadcastsInDim ⟨2, ![M, N]⟩ ![]) :
    maximumf (epi a dc br : FVec Ideal ⟨2, ![M, N]⟩ .f32)
      (broadcastInDim ⟨2, ![M, N]⟩ ![] h0 (constant (F := Ideal) ⟨0, ![]⟩ .f32 0x00000000#32)) = epiRelu a dc br := by
  funext j
  rfl

/-! ## A row block's vector operations -/

/-- The matrix unit's product of the narrowed operands into the zero accumulator, scaled by the column broadcast over
    the columns, is `linScale`. -/
theorem body_linScale (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![K, N]⟩ .f32) (dc : FVec Ideal ⟨2, ![M, 1]⟩ .f32)
    (hb : FTy.bf16.bits < FTy.f32.bits) (hsc : (⟨2, ![M, 1]⟩ : Shape).ShapeCasts ⟨2, ![M, 1]⟩)
    (hbr : (⟨2, ![M, 1]⟩ : Shape).Broadcasts ⟨2, ![M, N]⟩) :
    mulf (matmul d prec (truncf .bf16 x hb) (truncf .bf16 w hb) (constant (F := Ideal) ⟨2, ![M, N]⟩ .f32 0x00000000#32))
      (broadcastTo ⟨2, ![M, N]⟩ (shapeCast ⟨2, ![M, 1]⟩ dc hsc) hbr) = linScale x w dc := by
  funext j
  obtain ⟨p, q, rfl⟩ : ∃ (p : Fin M) (q : Fin N), j = ix2 p q := ⟨j 0, j 1, eq_ix2 j⟩
  rw [linScale_apply, mulf_apply, broadcastTo_col_apply, shapeCast_self]
  exact congrArg (· * dc (ix2 p (0 : Fin 1)))
    (Cert.Lib.PlainDot.matmul_zero_apply d hlc hrc hln hrn hlb hrb prec (truncf .bf16 x hb) (truncf .bf16 w hb) p q)

/-- A block scaled by the column broadcast over the columns, plus the row broadcast over the rows, is `epi`. -/
theorem body_epi (a : FVec Ideal ⟨2, ![M, N]⟩ .f32) (dc : FVec Ideal ⟨2, ![M, 1]⟩ .f32) (br : FVec Ideal ⟨2, ![1, N]⟩ .f32)
    (hsa : (⟨2, ![M, N]⟩ : Shape).ShapeCasts ⟨2, ![M, N]⟩)
    (hsc : (⟨2, ![M, 1]⟩ : Shape).ShapeCasts ⟨2, ![M, 1]⟩) (hbr : (⟨2, ![M, 1]⟩ : Shape).Broadcasts ⟨2, ![M, N]⟩)
    (hsr : (⟨2, ![1, N]⟩ : Shape).ShapeCasts ⟨2, ![1, N]⟩) (hbr' : (⟨2, ![1, N]⟩ : Shape).Broadcasts ⟨2, ![M, N]⟩) :
    addf (mulf (shapeCast ⟨2, ![M, N]⟩ a hsa) (broadcastTo ⟨2, ![M, N]⟩ (shapeCast ⟨2, ![M, 1]⟩ dc hsc) hbr))
      (broadcastTo ⟨2, ![M, N]⟩ (shapeCast ⟨2, ![1, N]⟩ br hsr) hbr') = epi a dc br := by
  funext j
  obtain ⟨p, q, rfl⟩ : ∃ (p : Fin M) (q : Fin N), j = ix2 p q := ⟨j 0, j 1, eq_ix2 j⟩
  rw [epi_apply, addf_apply, mulf_apply, broadcastTo_col_apply, broadcastTo_1b_ab_apply,
    shapeCast_self, shapeCast_self, shapeCast_self]

/-- The maximum of `epi` with the splat of the zero word is `epiRelu`. -/
theorem body_epiRelu (a : FVec Ideal ⟨2, ![M, N]⟩ .f32) (dc : FVec Ideal ⟨2, ![M, 1]⟩ .f32) (br : FVec Ideal ⟨2, ![1, N]⟩ .f32) :
    maximumf (epi a dc br : FVec Ideal ⟨2, ![M, N]⟩ .f32)
      (broadcast ⟨2, ![M, N]⟩ (Scalar.ofBits (F := Ideal) .f32 0x00000000#32)) = epiRelu a dc br := by
  funext j
  rfl

end Cert.Layer

end
-- ==== Proof.K0.lean ====
import proofs.«125446_j71244917506158_1_alg».proof.Proof.Gen.KernelIdeal.Frame
import proofs.«125446_j71244917506158_1_alg».proof.Proof.LayerOps
import Idealize.ShloMosaic.Lib.Pipeline.Value
import Idealize.ShloMosaic.Lib.Tactic

/-!
  The first pallas_call's output array. The grid has five points; point t reads rows 10000·t … 10000·t + 9999 of the
  [50000, 128] operand and of the [50000, 1] column, the whole [128, 64] weight, and writes rows 10000·t … of the
  [50000, 64] result. The body computes `linScale` of its three blocks, and entry (p, q) of `linScale` reads only row p
  of the operand and the column: so what point t writes back is block t of `linScale` of the whole arrays, and the five
  blocks cover the result.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen Cert.Layer

variable (V : (c : Dev nD) → (b : Ref sig .tc) → Buf (Elt Ideal) ((c : Thread nD τ).loc b))

theorem hz : (![0, 0] : Fin 2 → Nat) = fun _ => 0 := funext fun a => by fin_cases a <;> rfl

/-- The block indices of the four windows at point t: the row-block windows move with t, the weight stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The arrays as the region finds them, and the blocks at a point, at their literal types. -/
abbrev X0 (c : Dev nD) : Vec Ideal S50000x128 .f32 := V c main_arg0
abbrev Wt0 (c : Dev nD) : Vec Ideal S128x64 .f32 := V c main_arg1
abbrev D0 (c : Dev nD) : Vec Ideal S50000x1 .f32 := V c main_v10
abbrev xb0 (c : Dev nD) (t : Fin cfg0.N) : Vec Ideal S10000x128 .f32 := iblk0 V c 0 t
abbrev wb0 (c : Dev nD) (t : Fin cfg0.N) : Vec Ideal S128x64 .f32 := iblk0 V c 1 t
abbrev db0 (c : Dev nD) (t : Fin cfg0.N) : Vec Ideal S10000x1 .f32 := iblk0 V c 2 t

/-- Block t of the operand is its rows 10000·t … -/
theorem xb0_apply (c : Dev nD) (t : Fin cfg0.N) (a : S10000x128.Idx) (b : S50000x128.Idx)
    (h0 : (b 0).val = t.val * 10000 + (a 0).val) (h1 : (b 1).val = (a 1).val) : xb0 V c t a = X0 V c b := by
  obtain ⟨e00, e01, -, -, -, -, -, -⟩ := idx0 t
  unfold xb0 iblk0
  rw [View.read_apply]
  show V c main_arg0 _ = V c main_arg0 b
  congr 1
  funext ax
  apply Fin.ext
  match ax with
  | ⟨0, _⟩ => show win0_0.index t (0 : Fin 2) * 10000 + 1 * (a 0).val = (b 0).val; rw [e00, h0]; omega
  | ⟨1, _⟩ => show win0_0.index t (1 : Fin 2) * 128 + 1 * (a 1).val = (b 1).val; rw [e01, h1]; omega

/-- The weight's one block is the weight. -/
theorem wb0_eq (c : Dev nD) (t : Fin cfg0.N) : wb0 V c t = Wt0 V c := by
  obtain ⟨-, -, e10, e11, -, -, -, -⟩ := idx0 t
  funext a
  unfold wb0 iblk0
  rw [View.read_apply]
  show V c main_arg1 _ = V c main_arg1 a
  congr 1
  funext ax
  apply Fin.ext
  match ax with
  | ⟨0, _⟩ => show win0_1.index t (0 : Fin 2) * 128 + 1 * (a 0).val = (a 0).val; rw [e10]; omega
  | ⟨1, _⟩ => show win0_1.index t (1 : Fin 2) * 64 + 1 * (a 1).val = (a 1).val; rw [e11]; omega

/-- Block t of the column is its rows 10000·t … -/
theorem db0_apply (c : Dev nD) (t : Fin cfg0.N) (a : S10000x1.Idx) (b : S50000x1.Idx)
    (h0 : (b 0).val = t.val * 10000 + (a 0).val) (h1 : (b 1).val = (a 1).val) : db0 V c t a = D0 V c b := by
  obtain ⟨-, -, -, -, e20, e21, -, -⟩ := idx0 t
  unfold db0 iblk0
  rw [View.read_apply]
  show V c main_v10 _ = V c main_v10 b
  congr 1
  funext ax
  apply Fin.ext
  match ax with
  | ⟨0, _⟩ => show win0_2.index t (0 : Fin 2) * 10000 + 1 * (a 0).val = (b 0).val; rw [e20, h0]; omega
  | ⟨1, _⟩ => show win0_2.index t (1 : Fin 2) * 1 + 1 * (a 1).val = (b 1).val; rw [e21, h1]; omega

/-- The body's stored value is `linScale` of its loaded blocks. -/
theorem pay0 (x0 : Vec Ideal S10000x128 .f32) (x1 : Vec Ideal S128x64 .f32) (x2 : Vec Ideal S10000x1 .f32) :
    k0_pay1 x0 x1 x2 = linScale x0 x1 x2 := by
  unfold k0_pay1
  exact body_linScale dot_S10000x128_S128x64_S10000x64_1_0_0_1_n_n rfl rfl rfl rfl rfl rfl none x0 x1 x2 _ _ _

/-- What point t writes back is block t of `linScale` of the whole arrays. -/
theorem flushed0 (c : Dev nD) (t : Fin cfg0.N) :
    (dat0 V c).flushed 3 t = ((cfg0.win 3).blk t).view.read (Elt Ideal) (linScale (X0 V c) (Wt0 V c) (D0 V c) : Vec Ideal S50000x64 .f32) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S10000x1) hz]
  rw [pay0]
  obtain ⟨-, -, -, -, -, -, e30, e31⟩ := idx0 t
  funext j
  show linScale (xb0 V c t) (wb0 V c t) (db0 V c t) j = linScale (X0 V c) (Wt0 V c) (D0 V c) (((cfg0.win 3).blk t).view.emb j)
  rw [wb0_eq]
  refine linScale_at 10000 t.val (X0 V c) (Wt0 V c) (D0 V c) (xb0 V c t) (db0 V c t) j _ ?_ ?_
    (fun a b h0 h1 => xb0_apply V c t a b h0 h1) (fun a b h0 h1 => db0_apply V c t a b h0 h1)
  · show win0_3.index t (0 : Fin 2) * 10000 + 1 * (j 0).val = t.val * 10000 + (j 0).val; rw [e30]; omega
  · show win0_3.index t (1 : Fin 2) * 64 + 1 * (j 1).val = (j 1).val; rw [e31]; omega

/-- An index of the result is in point t's block iff each coordinate is in the block's range on its axis. -/
theorem mem_blk0 (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v15).slice (win0_3.rect t)).set ↔ _
  rw [View.set_slice_whole, Rect.mem_set_unit]
  exact Iff.rfl

/-- The result array after the region: `linScale` of the operand, the weight and the column as the region finds them. -/
theorem final0 (c : Dev nD) : (dat0 V c).arrAt 3 cfg0.N = (linScale (X0 V c) (Wt0 V c) (D0 V c) : Vec Ideal S50000x64 .f32) :=
  (dat0 V c).arrAt_eq_of_cover 3 _ (fun t _ => flushed0 V c t) fun i => by
    have hi0 : (i 0).val < 50000 := (i 0).isLt
    have hi1 : (i 1).val < 64 := (i 1).isLt
    refine ⟨⟨(i 0).val / 10000, by rw [show cfg0.N = 5 from N_0]; omega⟩, flush0_3 _, ?_⟩
    rw [mem_blk0]
    obtain ⟨-, -, -, -, -, -, e30, e31⟩ := idx0 ⟨(i 0).val / 10000, by rw [show cfg0.N = 5 from N_0]; omega⟩
    intro a
    match a with
    | ⟨0, _⟩ => show win0_3.index _ (0 : Fin 2) * 10000 ≤ (i 0).val ∧ (i 0).val < win0_3.index _ (0 : Fin 2) * 10000 + 10000; rw [e30]; show (i 0).val / 10000 * 10000 ≤ (i 0).val ∧ (i 0).val < (i 0).val / 10000 * 10000 + 10000; omega
    | ⟨1, _⟩ => show win0_3.index _ (1 : Fin 2) * 64 ≤ (i 1).val ∧ (i 1).val < win0_3.index _ (1 : Fin 2) * 64 + 64; rw [e31]; omega

end Cert.KernelIdeal.Layers

end
-- ==== Proof.K1.lean ====
import proofs.«125446_j71244917506158_1_alg».proof.Proof.Gen.KernelIdeal.Frame
import proofs.«125446_j71244917506158_1_alg».proof.Proof.LayerOps
import Idealize.ShloMosaic.Lib.Pipeline.Value
import Idealize.ShloMosaic.Lib.Tactic

/-!
  The second pallas_call's output array. Point t reads rows 10000·t … 10000·t + 9999 of the [50000, 64] aggregated array
  and of the [50000, 1] column, the whole [1, 64] bias row, and writes the same rows of the [50000, 64] result. The body
  computes `epiRelu` of its three blocks; entry (p, q) of `epiRelu` reads only row p of the aggregated array and the
  column: so what point t writes back is block t of `epiRelu` of the whole arrays, and the five blocks cover the result.
-/

set_option maxRecDepth 65536

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen Cert.Layer

variable (V : (c : Dev nD) → (b : Ref sig .tc) → Buf (Elt Ideal) ((c : Thread nD τ).loc b))

theorem hz1 : (![0, 0] : Fin 2 → Nat) = fun _ => 0 := funext fun a => by fin_cases a <;> rfl

/-- The block indices of the four windows at point t: the row-block windows move with t, the bias row stays. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The arrays as the region finds them, and the blocks at a point, at their literal types. -/
abbrev A1 (c : Dev nD) : Vec Ideal S50000x64 .f32 := V c main_v25
abbrev D1 (c : Dev nD) : Vec Ideal S50000x1 .f32 := V c main_v14
abbrev R1 (c : Dev nD) : Vec Ideal S1x64 .f32 := V c main_v26
abbrev ab1 (c : Dev nD) (t : Fin cfg1.N) : Vec Ideal S10000x64 .f32 := iblk1 V c 0 t
abbrev db1 (c : Dev nD) (t : Fin cfg1.N) : Vec Ideal S10000x1 .f32 := iblk1 V c 1 t
abbrev rb1 (c : Dev nD) (t : Fin cfg1.N) : Vec Ideal S1x64 .f32 := iblk1 V c 2 t

/-- Block t of the aggregated array is its rows 10000·t … -/
theorem ab1_apply (c : Dev nD) (t : Fin cfg1.N) (a : S10000x64.Idx) (b : S50000x64.Idx)
    (h0 : (b 0).val = t.val * 10000 + (a 0).val) (h1 : (b 1).val = (a 1).val) : ab1 V c t a = A1 V c b := by
  obtain ⟨e00, e01, -, -, -, -, -, -⟩ := idx1 t
  unfold ab1 iblk1
  rw [View.read_apply]
  show V c main_v25 _ = V c main_v25 b
  congr 1
  funext ax
  apply Fin.ext
  match ax with
  | ⟨0, _⟩ => show win1_0.index t (0 : Fin 2) * 10000 + 1 * (a 0).val = (b 0).val; rw [e00, h0]; omega
  | ⟨1, _⟩ => show win1_0.index t (1 : Fin 2) * 64 + 1 * (a 1).val = (b 1).val; rw [e01, h1]; omega

/-- Block t of the column is its rows 10000·t … -/
theorem db1_apply (c : Dev nD) (t : Fin cfg1.N) (a : S10000x1.Idx) (b : S50000x1.Idx)
    (h0 : (b 0).val = t.val * 10000 + (a 0).val) (h1 : (b 1).val = (a 1).val) : db1 V c t a = D1 V c b := by
  obtain ⟨-, -, e10, e11, -, -, -, -⟩ := idx1 t
  unfold db1 iblk1
  rw [View.read_apply]
  show V c main_v14 _ = V c main_v14 b
  congr 1
  funext ax
  apply Fin.ext
  match ax with
  | ⟨0, _⟩ => show win1_1.index t (0 : Fin 2) * 10000 + 1 * (a 0).val = (b 0).val; rw [e10, h0]; omega
  | ⟨1, _⟩ => show win1_1.index t (1 : Fin 2) * 1 + 1 * (a 1).val = (b 1).val; rw [e11, h1]; omega

/-- The bias row's one block is the bias row. -/
theorem rb1_eq (c : Dev nD) (t : Fin cfg1.N) : rb1 V c t = R1 V c := by
  obtain ⟨-, -, -, -, e20, e21, -, -⟩ := idx1 t
  funext a
  unfold rb1 iblk1
  rw [View.read_apply]
  show V c main_v26 _ = V c main_v26 a
  congr 1
  funext ax
  apply Fin.ext
  match ax with
  | ⟨0, _⟩ => show win1_2.index t (0 : Fin 2) * 1 + 1 * (a 0).val = (a 0).val; rw [e20]; omega
  | ⟨1, _⟩ => show win1_2.index t (1 : Fin 2) * 64 + 1 * (a 1).val = (a 1).val; rw [e21]; omega

/-- The body's stored value is `epiRelu` of its loaded blocks. -/
theorem pay1 (x0 : Vec Ideal S10000x64 .f32) (x1 : Vec Ideal S10000x1 .f32) (x2 : Vec Ideal S1x64 .f32) :
    k1_pay1 x0 x1 x2 = epiRelu x0 x1 x2 := by
  unfold k1_pay1
  dsimp only
  rw [body_epi]
  exact body_epiRelu x0 x1 x2

/-- What point t writes back is block t of `epiRelu` of the whole arrays. -/
theorem flushed1 (c : Dev nD) (t : Fin cfg1.N) :
    (dat1 V c).flushed 3 t = ((cfg1.win 3).blk t).view.read (Elt Ideal) (epiRelu (A1 V c) (D1 V c) (R1 V c) : Vec Ideal S50000x64 .f32) := by
  show (cfg1.win 3).cut (grid1.coords t) ((dat1 V c).after 3 t) = _
  rw [after1_3]
  unfold out1_3
  rw [View.canon_unit_zero hz1]
  simp only [View.ld_unit_zero (S := S10000x64) hz1, View.ld_unit_zero (S := S10000x1) hz1, View.ld_unit_zero (S := S1x64) hz1]
  rw [pay1]
  obtain ⟨-, -, -, -, -, -, e30, e31⟩ := idx1 t
  funext j
  show epiRelu (ab1 V c t) (db1 V c t) (rb1 V c t) j = epiRelu (A1 V c) (D1 V c) (R1 V c) (((cfg1.win 3).blk t).view.emb j)
  rw [rb1_eq]
  refine epiRelu_at 10000 t.val (A1 V c) (D1 V c) (R1 V c) (ab1 V c t) (db1 V c t) j _ ?_ ?_
    (fun a b h0 h1 => ab1_apply V c t a b h0 h1) (fun a b h0 h1 => db1_apply V c t a b h0 h1)
  · show win1_3.index t (0 : Fin 2) * 10000 + 1 * (j 0).val = t.val * 10000 + (j 0).val; rw [e30]; omega
  · show win1_3.index t (1 : Fin 2) * 64 + 1 * (j 1).val = (j 1).val; rw [e31]; omega

/-- An index of the result is in point t's block iff each coordinate is in the block's range on its axis. -/
theorem mem_blk1 (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v27).slice (win1_3.rect t)).set ↔ _
  rw [View.set_slice_whole, Rect.mem_set_unit]
  exact Iff.rfl

/-- The result array after the region: `epiRelu` of the aggregated array, the column and the bias row as the region finds them. -/
theorem final1 (c : Dev nD) : (dat1 V c).arrAt 3 cfg1.N = (epiRelu (A1 V c) (D1 V c) (R1 V c) : Vec Ideal S50000x64 .f32) :=
  (dat1 V c).arrAt_eq_of_cover 3 _ (fun t _ => flushed1 V c t) fun i => by
    have hi0 : (i 0).val < 50000 := (i 0).isLt
    have hi1 : (i 1).val < 64 := (i 1).isLt
    refine ⟨⟨(i 0).val / 10000, by rw [show cfg1.N = 5 from N_1]; omega⟩, flush1_3 _, ?_⟩
    rw [mem_blk1]
    obtain ⟨-, -, -, -, -, -, e30, e31⟩ := idx1 ⟨(i 0).val / 10000, by rw [show cfg1.N = 5 from N_1]; omega⟩
    intro a
    match a with
    | ⟨0, _⟩ => show win1_3.index _ (0 : Fin 2) * 10000 ≤ (i 0).val ∧ (i 0).val < win1_3.index _ (0 : Fin 2) * 10000 + 10000; rw [e30]; show (i 0).val / 10000 * 10000 ≤ (i 0).val ∧ (i 0).val < (i 0).val / 10000 * 10000 + 10000; omega
    | ⟨1, _⟩ => show win1_3.index _ (1 : Fin 2) * 64 ≤ (i 1).val ∧ (i 1).val < win1_3.index _ (1 : Fin 2) * 64 + 64; rw [e31]; omega

end Cert.KernelIdeal.Layers

end
-- ==== Proof.K2.lean ====
import proofs.«125446_j71244917506158_1_alg».proof.Proof.Gen.KernelIdeal.Frame
import proofs.«125446_j71244917506158_1_alg».proof.Proof.LayerOps
import Idealize.ShloMosaic.Lib.Pipeline.Value
import Idealize.ShloMosaic.Lib.Tactic

/-!
  The third pallas_call's output array. The grid has five points; point t reads rows 10000·t … 10000·t + 9999 of the
  [50000, 64] operand and of the [50000, 1] column, the whole [64, 64] weight, and writes rows 10000·t … of the
  [50000, 64] result. The body computes `linScale` of its three blocks, and entry (p, q) of `linScale` reads only row p
  of the operand and the column: so what point t writes back is block t of `linScale` of the whole arrays, and the five
  blocks cover the result.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen Cert.Layer

variable (V : (c : Dev nD) → (b : Ref sig .tc) → Buf (Elt Ideal) ((c : Thread nD τ).loc b))

theorem hz2 : (![0, 0] : Fin 2 → Nat) = fun _ => 0 := funext fun a => by fin_cases a <;> rfl

/-- The block indices of the four windows at point t: the row-block windows move with t, the weight stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The arrays as the region finds them, and the blocks at a point, at their literal types. -/
abbrev X2 (c : Dev nD) : Vec Ideal S50000x64 .f32 := V c main_v27
abbrev Wt2 (c : Dev nD) : Vec Ideal S64x64 .f32 := V c main_arg3
abbrev D2 (c : Dev nD) : Vec Ideal S50000x1 .f32 := V c main_v10
abbrev xb2 (c : Dev nD) (t : Fin cfg2.N) : Vec Ideal S10000x64 .f32 := iblk2 V c 0 t
abbrev wb2 (c : Dev nD) (t : Fin cfg2.N) : Vec Ideal S64x64 .f32 := iblk2 V c 1 t
abbrev db2 (c : Dev nD) (t : Fin cfg2.N) : Vec Ideal S10000x1 .f32 := iblk2 V c 2 t

/-- Block t of the operand is its rows 10000·t … -/
theorem xb2_apply (c : Dev nD) (t : Fin cfg2.N) (a : S10000x64.Idx) (b : S50000x64.Idx)
    (h0 : (b 0).val = t.val * 10000 + (a 0).val) (h1 : (b 1).val = (a 1).val) : xb2 V c t a = X2 V c b := by
  obtain ⟨e00, e01, -, -, -, -, -, -⟩ := idx2 t
  unfold xb2 iblk2
  rw [View.read_apply]
  show V c main_v27 _ = V c main_v27 b
  congr 1
  funext ax
  apply Fin.ext
  match ax with
  | ⟨0, _⟩ => show win2_0.index t (0 : Fin 2) * 10000 + 1 * (a 0).val = (b 0).val; rw [e00, h0]; omega
  | ⟨1, _⟩ => show win2_0.index t (1 : Fin 2) * 64 + 1 * (a 1).val = (b 1).val; rw [e01, h1]; omega

/-- The weight's one block is the weight. -/
theorem wb2_eq (c : Dev nD) (t : Fin cfg2.N) : wb2 V c t = Wt2 V c := by
  obtain ⟨-, -, e10, e11, -, -, -, -⟩ := idx2 t
  funext a
  unfold wb2 iblk2
  rw [View.read_apply]
  show V c main_arg3 _ = V c main_arg3 a
  congr 1
  funext ax
  apply Fin.ext
  match ax with
  | ⟨0, _⟩ => show win2_1.index t (0 : Fin 2) * 64 + 1 * (a 0).val = (a 0).val; rw [e10]; omega
  | ⟨1, _⟩ => show win2_1.index t (1 : Fin 2) * 64 + 1 * (a 1).val = (a 1).val; rw [e11]; omega

/-- Block t of the column is its rows 10000·t … -/
theorem db2_apply (c : Dev nD) (t : Fin cfg2.N) (a : S10000x1.Idx) (b : S50000x1.Idx)
    (h0 : (b 0).val = t.val * 10000 + (a 0).val) (h1 : (b 1).val = (a 1).val) : db2 V c t a = D2 V c b := by
  obtain ⟨-, -, -, -, e20, e21, -, -⟩ := idx2 t
  unfold db2 iblk2
  rw [View.read_apply]
  show V c main_v10 _ = V c main_v10 b
  congr 1
  funext ax
  apply Fin.ext
  match ax with
  | ⟨0, _⟩ => show win2_2.index t (0 : Fin 2) * 10000 + 1 * (a 0).val = (b 0).val; rw [e20, h0]; omega
  | ⟨1, _⟩ => show win2_2.index t (1 : Fin 2) * 1 + 1 * (a 1).val = (b 1).val; rw [e21, h1]; omega

/-- The body's stored value is `linScale` of its loaded blocks. -/
theorem pay2 (x0 : Vec Ideal S10000x64 .f32) (x1 : Vec Ideal S64x64 .f32) (x2 : Vec Ideal S10000x1 .f32) :
    k2_pay1 x0 x1 x2 = linScale x0 x1 x2 := by
  unfold k2_pay1
  dsimp only
  rw [shapeCast_self]
  exact body_linScale dot_S10000x64_S64x64_S10000x64_1_0_0_1_n_n rfl rfl rfl rfl rfl rfl none x0 x1 x2 _ _ _

/-- What point t writes back is block t of `linScale` of the whole arrays. -/
theorem flushed2 (c : Dev nD) (t : Fin cfg2.N) :
    (dat2 V c).flushed 3 t = ((cfg2.win 3).blk t).view.read (Elt Ideal) (linScale (X2 V c) (Wt2 V c) (D2 V c) : Vec Ideal S50000x64 .f32) := by
  show (cfg2.win 3).cut (grid2.coords t) ((dat2 V c).after 3 t) = _
  rw [after2_3]
  unfold out2_3
  rw [View.canon_unit_zero hz2]
  simp only [View.ld_unit_zero (S := S10000x64) hz2, View.ld_unit_zero (S := S64x64) hz2, View.ld_unit_zero (S := S10000x1) hz2]
  rw [pay2]
  obtain ⟨-, -, -, -, -, -, e30, e31⟩ := idx2 t
  funext j
  show linScale (xb2 V c t) (wb2 V c t) (db2 V c t) j = linScale (X2 V c) (Wt2 V c) (D2 V c) (((cfg2.win 3).blk t).view.emb j)
  rw [wb2_eq]
  refine linScale_at 10000 t.val (X2 V c) (Wt2 V c) (D2 V c) (xb2 V c t) (db2 V c t) j _ ?_ ?_
    (fun a b h0 h1 => xb2_apply V c t a b h0 h1) (fun a b h0 h1 => db2_apply V c t a b h0 h1)
  · show win2_3.index t (0 : Fin 2) * 10000 + 1 * (j 0).val = t.val * 10000 + (j 0).val; rw [e30]; omega
  · show win2_3.index t (1 : Fin 2) * 64 + 1 * (j 1).val = (j 1).val; rw [e31]; omega

/-- An index of the result is in point t's block iff each coordinate is in the block's range on its axis. -/
theorem mem_blk2 (t : Fin cfg2.N) (i : S50000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v28).slice (win2_3.rect t)).set ↔ _
  rw [View.set_slice_whole, Rect.mem_set_unit]
  exact Iff.rfl

/-- The result array after the region: `linScale` of the operand, the weight and the column as the region finds them. -/
theorem final2 (c : Dev nD) : (dat2 V c).arrAt 3 cfg2.N = (linScale (X2 V c) (Wt2 V c) (D2 V c) : Vec Ideal S50000x64 .f32) :=
  (dat2 V c).arrAt_eq_of_cover 3 _ (fun t _ => flushed2 V c t) fun i => by
    have hi0 : (i 0).val < 50000 := (i 0).isLt
    have hi1 : (i 1).val < 64 := (i 1).isLt
    refine ⟨⟨(i 0).val / 10000, by rw [show cfg2.N = 5 from N_2]; omega⟩, flush2_3 _, ?_⟩
    rw [mem_blk2]
    obtain ⟨-, -, -, -, -, -, e30, e31⟩ := idx2 ⟨(i 0).val / 10000, by rw [show cfg2.N = 5 from N_2]; omega⟩
    intro a
    match a with
    | ⟨0, _⟩ => show win2_3.index _ (0 : Fin 2) * 10000 ≤ (i 0).val ∧ (i 0).val < win2_3.index _ (0 : Fin 2) * 10000 + 10000; rw [e30]; show (i 0).val / 10000 * 10000 ≤ (i 0).val ∧ (i 0).val < (i 0).val / 10000 * 10000 + 10000; omega
    | ⟨1, _⟩ => show win2_3.index _ (1 : Fin 2) * 64 ≤ (i 1).val ∧ (i 1).val < win2_3.index _ (1 : Fin 2) * 64 + 64; rw [e31]; omega

end Cert.KernelIdeal.Layers

end
-- ==== Proof.K3.lean ====
import proofs.«125446_j71244917506158_1_alg».proof.Proof.Gen.KernelIdeal.Frame
import proofs.«125446_j71244917506158_1_alg».proof.Proof.LayerOps
import Idealize.ShloMosaic.Lib.Pipeline.Value
import Idealize.ShloMosaic.Lib.Tactic

/-!
  The fourth pallas_call's output array. Point t reads rows 10000·t … 10000·t + 9999 of the [50000, 64] aggregated array
  and of the [50000, 1] column, the whole [1, 64] bias row, and writes the same rows of the [50000, 64] result. The body
  computes `epi` of its three blocks; entry (p, q) of `epi` reads only row p of the aggregated array and the column: so
  what point t writes back is block t of `epi` of the whole arrays, and the five blocks cover the result.
-/

set_option maxRecDepth 65536

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen Cert.Layer

variable (V : (c : Dev nD) → (b : Ref sig .tc) → Buf (Elt Ideal) ((c : Thread nD τ).loc b))

theorem hz3 : (![0, 0] : Fin 2 → Nat) = fun _ => 0 := funext fun a => by fin_cases a <;> rfl

/-- The block indices of the four windows at point t: the row-block windows move with t, the bias row stays. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The arrays as the region finds them, and the blocks at a point, at their literal types. -/
abbrev A3 (c : Dev nD) : Vec Ideal S50000x64 .f32 := V c main_v38
abbrev D3 (c : Dev nD) : Vec Ideal S50000x1 .f32 := V c main_v14
abbrev R3 (c : Dev nD) : Vec Ideal S1x64 .f32 := V c main_v39
abbrev ab3 (c : Dev nD) (t : Fin cfg3.N) : Vec Ideal S10000x64 .f32 := iblk3 V c 0 t
abbrev db3 (c : Dev nD) (t : Fin cfg3.N) : Vec Ideal S10000x1 .f32 := iblk3 V c 1 t
abbrev rb3 (c : Dev nD) (t : Fin cfg3.N) : Vec Ideal S1x64 .f32 := iblk3 V c 2 t

/-- Block t of the aggregated array is its rows 10000·t … -/
theorem ab3_apply (c : Dev nD) (t : Fin cfg3.N) (a : S10000x64.Idx) (b : S50000x64.Idx)
    (h0 : (b 0).val = t.val * 10000 + (a 0).val) (h1 : (b 1).val = (a 1).val) : ab3 V c t a = A3 V c b := by
  obtain ⟨e00, e01, -, -, -, -, -, -⟩ := idx3 t
  unfold ab3 iblk3
  rw [View.read_apply]
  show V c main_v38 _ = V c main_v38 b
  congr 1
  funext ax
  apply Fin.ext
  match ax with
  | ⟨0, _⟩ => show win3_0.index t (0 : Fin 2) * 10000 + 1 * (a 0).val = (b 0).val; rw [e00, h0]; omega
  | ⟨1, _⟩ => show win3_0.index t (1 : Fin 2) * 64 + 1 * (a 1).val = (b 1).val; rw [e01, h1]; omega

/-- Block t of the column is its rows 10000·t … -/
theorem db3_apply (c : Dev nD) (t : Fin cfg3.N) (a : S10000x1.Idx) (b : S50000x1.Idx)
    (h0 : (b 0).val = t.val * 10000 + (a 0).val) (h1 : (b 1).val = (a 1).val) : db3 V c t a = D3 V c b := by
  obtain ⟨-, -, e10, e11, -, -, -, -⟩ := idx3 t
  unfold db3 iblk3
  rw [View.read_apply]
  show V c main_v14 _ = V c main_v14 b
  congr 1
  funext ax
  apply Fin.ext
  match ax with
  | ⟨0, _⟩ => show win3_1.index t (0 : Fin 2) * 10000 + 1 * (a 0).val = (b 0).val; rw [e10, h0]; omega
  | ⟨1, _⟩ => show win3_1.index t (1 : Fin 2) * 1 + 1 * (a 1).val = (b 1).val; rw [e11, h1]; omega

/-- The bias row's one block is the bias row. -/
theorem rb3_eq (c : Dev nD) (t : Fin cfg3.N) : rb3 V c t = R3 V c := by
  obtain ⟨-, -, -, -, e20, e21, -, -⟩ := idx3 t
  funext a
  unfold rb3 iblk3
  rw [View.read_apply]
  show V c main_v39 _ = V c main_v39 a
  congr 1
  funext ax
  apply Fin.ext
  match ax with
  | ⟨0, _⟩ => show win3_2.index t (0 : Fin 2) * 1 + 1 * (a 0).val = (a 0).val; rw [e20]; omega
  | ⟨1, _⟩ => show win3_2.index t (1 : Fin 2) * 64 + 1 * (a 1).val = (a 1).val; rw [e21]; omega

/-- The body's stored value is `epi` of its loaded blocks. -/
theorem pay3 (x0 : Vec Ideal S10000x64 .f32) (x1 : Vec Ideal S10000x1 .f32) (x2 : Vec Ideal S1x64 .f32) :
    k3_pay1 x0 x1 x2 = epi x0 x1 x2 := by
  unfold k3_pay1
  dsimp only
  exact body_epi x0 x1 x2 _ _ _ _ _

/-- What point t writes back is block t of `epi` of the whole arrays. -/
theorem flushed3 (c : Dev nD) (t : Fin cfg3.N) :
    (dat3 V c).flushed 3 t = ((cfg3.win 3).blk t).view.read (Elt Ideal) (epi (A3 V c) (D3 V c) (R3 V c) : Vec Ideal S50000x64 .f32) := by
  show (cfg3.win 3).cut (grid3.coords t) ((dat3 V c).after 3 t) = _
  rw [after3_3]
  unfold out3_3
  rw [View.canon_unit_zero hz3]
  simp only [View.ld_unit_zero (S := S10000x64) hz3, View.ld_unit_zero (S := S10000x1) hz3, View.ld_unit_zero (S := S1x64) hz3]
  rw [pay3]
  obtain ⟨-, -, -, -, -, -, e30, e31⟩ := idx3 t
  funext j
  show epi (ab3 V c t) (db3 V c t) (rb3 V c t) j = epi (A3 V c) (D3 V c) (R3 V c) (((cfg3.win 3).blk t).view.emb j)
  rw [rb3_eq]
  refine epi_at 10000 t.val (A3 V c) (D3 V c) (R3 V c) (ab3 V c t) (db3 V c t) j _ ?_ ?_
    (fun a b h0 h1 => ab3_apply V c t a b h0 h1) (fun a b h0 h1 => db3_apply V c t a b h0 h1)
  · show win3_3.index t (0 : Fin 2) * 10000 + 1 * (j 0).val = t.val * 10000 + (j 0).val; rw [e30]; omega
  · show win3_3.index t (1 : Fin 2) * 64 + 1 * (j 1).val = (j 1).val; rw [e31]; omega

/-- An index of the result is in point t's block iff each coordinate is in the block's range on its axis. -/
theorem mem_blk3 (t : Fin cfg3.N) (i : S50000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v40).slice (win3_3.rect t)).set ↔ _
  rw [View.set_slice_whole, Rect.mem_set_unit]
  exact Iff.rfl

/-- The result array after the region: `epi` of the aggregated array, the column and the bias row as the region finds them. -/
theorem final3 (c : Dev nD) : (dat3 V c).arrAt 3 cfg3.N = (epi (A3 V c) (D3 V c) (R3 V c) : Vec Ideal S50000x64 .f32) :=
  (dat3 V c).arrAt_eq_of_cover 3 _ (fun t _ => flushed3 V c t) fun i => by
    have hi0 : (i 0).val < 50000 := (i 0).isLt
    have hi1 : (i 1).val < 64 := (i 1).isLt
    refine ⟨⟨(i 0).val / 10000, by rw [show cfg3.N = 5 from N_3]; omega⟩, flush3_3 _, ?_⟩
    rw [mem_blk3]
    obtain ⟨-, -, -, -, -, -, e30, e31⟩ := idx3 ⟨(i 0).val / 10000, by rw [show cfg3.N = 5 from N_3]; omega⟩
    intro a
    match a with
    | ⟨0, _⟩ => show win3_3.index _ (0 : Fin 2) * 10000 ≤ (i 0).val ∧ (i 0).val < win3_3.index _ (0 : Fin 2) * 10000 + 10000; rw [e30]; show (i 0).val / 10000 * 10000 ≤ (i 0).val ∧ (i 0).val < (i 0).val / 10000 * 10000 + 10000; omega
    | ⟨1, _⟩ => show win3_3.index _ (1 : Fin 2) * 64 ≤ (i 1).val ∧ (i 1).val < win3_3.index _ (1 : Fin 2) * 64 + 64; rw [e31]; omega

end Cert.KernelIdeal.Layers

end
-- ==== Proof.Graph.lean ====
import proofs.«125446_j71244917506158_1_alg».proof.Proof.Gen.ReferenceIdeal
import proofs.«125446_j71244917506158_1_alg».proof.Proof.LayerOps

/-!
  The two-layer graph convolution as one function of the seven argument arrays, written once, over the host's
  operations: the inverse square roots of the clamped out- and in-degrees (`deg`), a vector as a column and as a row
  (`col`, `row`), the gather of source rows scattered-and-added onto destination rows (`agg`), and the two layers
  over the layer functions `linScale`, `epiRelu`, `epi`.
-/

noncomputable section

namespace Cert.Graph

open Idealize.ShloMosaic Cert.ReferenceIdeal Cert.ReferenceIdeal.Facts₀ Cert.Layer

/-- 1 / √(max(number of edges whose index word is the node, 1)), per node. -/
def deg (idx : IVec S800000 32) : FVec Ideal S50000 .f32 :=
  Host.rsqrt (maximumf (Host.scatterAdd scatter_S50000_S800000x1_S800000_n_0_0_1 (broadcastInDim S50000 ![] bcast_S_S50000 (constant (F := Ideal) S_ .f32 0x00000000#32)) (broadcastInDim S800000x1 ![0] bcast_S800000_S800000x1_0 idx) (broadcastInDim S800000 ![] bcast_S_S800000 (constant (F := Ideal) S_ .f32 0x3F800000#32))) (broadcastInDim S50000 ![] bcast_S_S50000 (constant (F := Ideal) S_ .f32 0x3F800000#32)))

/-- A per-node vector as a [50000, 1] column. -/
def col (d : FVec Ideal S50000 .f32) : FVec Ideal S50000x1 .f32 := broadcastInDim S50000x1 ![0] bcast_S50000_S50000x1_0 d

/-- A bias vector as a [1, 64] row. -/
def row (b : FVec Ideal S64 .f32) : FVec Ideal S1x64 .f32 := broadcastInDim S1x64 ![1] bcast_S64_S1x64_1 b

/-- Row e of the gathered array is row src(e) of h (a negative index word taken modulo the node count, as the host
    normalises it); the rows are added onto rows dst(e) of a zero array. -/
def agg (h : FVec Ideal S50000x64 .f32) (src dst : IVec S800000 32) : FVec Ideal S50000x64 .f32 :=
  Host.scatterAdd scatter_S50000x64_S800000x1_S800000x64_1_0_0_1 (broadcastInDim S50000x64 ![] bcast_S_S50000x64 (constant (F := Ideal) S_ .f32 0x00000000#32)) (broadcastInDim S800000x1 ![0] bcast_S800000_S800000x1_0 dst) (Host.gather gather_S50000x64_S800000x1_S800000x64_1_0_n_n_0_1_164 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-- The first layer: transform, scale by the out-degree column, aggregate, scale by the in-degree column, add the bias,
    clamp at the zero word. -/
def layer1 (x : FVec Ideal S50000x128 .f32) (W1 : FVec Ideal S128x64 .f32) (b1 : FVec Ideal S64 .f32) (src dst : IVec S800000 32) :
    FVec Ideal S50000x64 .f32 :=
  epiRelu (agg (linScale x W1 (col (deg src))) src dst) (col (deg dst)) (row b1)

/-- The second layer: the same without the clamp. -/
def layer2 (z : FVec Ideal S50000x64 .f32) (W2 : FVec Ideal S64x64 .f32) (b2 : FVec Ideal S64 .f32) (src dst : IVec S800000 32) :
    FVec Ideal S50000x64 .f32 :=
  epi (agg (linScale z W2 (col (deg src))) src dst) (col (deg dst)) (row b2)

/-- The whole network. -/
def net (x : FVec Ideal S50000x128 .f32) (W1 : FVec Ideal S128x64 .f32) (b1 : FVec Ideal S64 .f32) (W2 : FVec Ideal S64x64 .f32)
    (b2 : FVec Ideal S64 .f32) (src dst : IVec S800000 32) : FVec Ideal S50000x64 .f32 :=
  layer2 (layer1 x W1 b1 src dst) W2 b2 src dst

end Cert.Graph

end
-- ==== Proof.KChain.lean ====
import proofs.«125446_j71244917506158_1_alg».proof.Proof.Gen.KernelIdeal.Frame
import proofs.«125446_j71244917506158_1_alg».proof.Proof.K0
import proofs.«125446_j71244917506158_1_alg».proof.Proof.K1
import proofs.«125446_j71244917506158_1_alg».proof.Proof.K2
import proofs.«125446_j71244917506158_1_alg».proof.Proof.K3
import proofs.«125446_j71244917506158_1_alg».proof.Proof.Graph
import Idealize.ShloMosaic.Lib.StableHlo.Run

/-!
  The kernel program's result buffer at the last boundary, followed back through the seven segments of @main to the
  launch memory: host operations compute the two degree columns; the first region leaves `linScale` of x, W1 and the
  out-degree column; host operations aggregate it and shape the bias row; the second region leaves `epiRelu`; the third
  `linScale` with W2; host operations aggregate again; the fourth region leaves `epi`. Buffers a segment does not
  write keep their contents. Composed, the result is the network function of the seven argument arrays.
-/

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen Cert.Layer Cert.Graph

variable (m : (ℓ : Loc nD τ sig) → Buf (Elt Ideal) ℓ) (ρ : Dev nD → PrngReg) (c : Dev nD)

set_option quotPrecheck false

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)

/-! ## After the first host stretch: the degree columns; the arguments untouched -/

theorem arg0_1 : W1 m ρ c (Proc.devRef .tc main_arg0) = A0 := by
  show StableHlo.after hostOps0 (W0 m ρ c) (Proc.devRef .tc main_arg0) = _
  after_results_simp <;> rfl
theorem arg1_1 : W1 m ρ c (Proc.devRef .tc main_arg1) = A1 := by
  show StableHlo.after hostOps0 (W0 m ρ c) (Proc.devRef .tc main_arg1) = _
  after_results_simp <;> rfl
theorem arg2_1 : W1 m ρ c (Proc.devRef .tc main_arg2) = A2 := by
  show StableHlo.after hostOps0 (W0 m ρ c) (Proc.devRef .tc main_arg2) = _
  after_results_simp <;> rfl
theorem arg3_1 : W1 m ρ c (Proc.devRef .tc main_arg3) = A3 := by
  show StableHlo.after hostOps0 (W0 m ρ c) (Proc.devRef .tc main_arg3) = _
  after_results_simp <;> rfl
theorem arg4_1 : W1 m ρ c (Proc.devRef .tc main_arg4) = A4 := by
  show StableHlo.after hostOps0 (W0 m ρ c) (Proc.devRef .tc main_arg4) = _
  after_results_simp <;> rfl
theorem arg5_1 : W1 m ρ c (Proc.devRef .tc main_arg5) = A5 := by
  show StableHlo.after hostOps0 (W0 m ρ c) (Proc.devRef .tc main_arg5) = _
  after_results_simp <;> rfl
theorem arg6_1 : W1 m ρ c (Proc.devRef .tc main_arg6) = A6 := by
  show StableHlo.after hostOps0 (W0 m ρ c) (Proc.devRef .tc main_arg6) = _
  after_results_simp <;> rfl

/-- The out-degree column: the host's reshape of the vector is its broadcast into a column. -/
theorem v10_1 : W1 m ρ c (Proc.devRef .tc main_v10) = col (deg A5) := by
  show StableHlo.after hostOps0 (W0 m ρ c) (Proc.devRef .tc main_v10) = _
  after_results_simp
  exact col_shapeCast_eq_broadcastInDim (deg A5) shapeCasts_S50000_S50000x1 _

/-- The in-degree column. -/
theorem v14_1 : W1 m ρ c (Proc.devRef .tc main_v14) = col (deg A6) := by
  show StableHlo.after hostOps0 (W0 m ρ c) (Proc.devRef .tc main_v14) = _
  after_results_simp
  exact col_shapeCast_eq_broadcastInDim (deg A6) shapeCasts_S50000_S50000x1 _

/-! ## After the first region -/

theorem v15_2 : W2 m ρ c (Proc.devRef .tc main_v15) = linScale A0 A1 (col (deg A5)) := by
  refine (W2_arr m ρ c 3).trans ((Layers.final0 (V1 m ρ) c).trans ?_)
  show linScale (W1 m ρ c (Proc.devRef .tc main_arg0)) (W1 m ρ c (Proc.devRef .tc main_arg1)) (W1 m ρ c (Proc.devRef .tc main_v10)) = _
  rw [arg0_1 m ρ c, arg1_1 m ρ c, v10_1 m ρ c]

/-- The out-degree column is an input window of the first region: the region leaves it as it found it. -/
theorem v10_2 : W2 m ρ c (Proc.devRef .tc main_v10) = col (deg A5) :=
  ((W2_arr m ρ c 2).trans (((dat0 (V1 m ρ) c).arrAt_in 2 rfl _).trans (A_eq0 (V1 m ρ) c 2))).trans (v10_1 m ρ c)
theorem v14_2 : W2 m ρ c (Proc.devRef .tc main_v14) = col (deg A6) := (W2_of_ne m ρ c main_v14 (by decide)).trans (v14_1 m ρ c)
theorem arg2_2 : W2 m ρ c (Proc.devRef .tc main_arg2) = A2 := (W2_of_ne m ρ c main_arg2 (by decide)).trans (arg2_1 m ρ c)
theorem arg3_2 : W2 m ρ c (Proc.devRef .tc main_arg3) = A3 := (W2_of_ne m ρ c main_arg3 (by decide)).trans (arg3_1 m ρ c)
theorem arg4_2 : W2 m ρ c (Proc.devRef .tc main_arg4) = A4 := (W2_of_ne m ρ c main_arg4 (by decide)).trans (arg4_1 m ρ c)
theorem arg5_2 : W2 m ρ c (Proc.devRef .tc main_arg5) = A5 := (W2_of_ne m ρ c main_arg5 (by decide)).trans (arg5_1 m ρ c)
theorem arg6_2 : W2 m ρ c (Proc.devRef .tc main_arg6) = A6 := (W2_of_ne m ρ c main_arg6 (by decide)).trans (arg6_1 m ρ c)

/-! ## After the second host stretch: the first aggregation and the first bias row -/

theorem v25_3 : W3 m ρ c (Proc.devRef .tc main_v25) = agg (linScale A0 A1 (col (deg A5))) A5 A6 := by
  show StableHlo.after hostOps1 (W2 m ρ c) (Proc.devRef .tc main_v25) = _
  after_results_simp
  rw [v15_2 m ρ c, arg5_2 m ρ c, arg6_2 m ρ c]
  rfl

/-- The bias row: the host's reshape of the vector is its broadcast into a row. -/
theorem v26_3 : W3 m ρ c (Proc.devRef .tc main_v26) = row A2 := by
  show StableHlo.after hostOps1 (W2 m ρ c) (Proc.devRef .tc main_v26) = _
  after_results_simp
  rw [arg2_2 m ρ c]
  exact row_shapeCast_eq_broadcastInDim A2 shapeCasts_S64_S1x64 _

theorem v10_3 : W3 m ρ c (Proc.devRef .tc main_v10) = col (deg A5) := by
  show StableHlo.after hostOps1 (W2 m ρ c) (Proc.devRef .tc main_v10) = _
  after_results_simp
  exact v10_2 m ρ c
theorem v14_3 : W3 m ρ c (Proc.devRef .tc main_v14) = col (deg A6) := by
  show StableHlo.after hostOps1 (W2 m ρ c) (Proc.devRef .tc main_v14) = _
  after_results_simp
  exact v14_2 m ρ c
theorem arg3_3 : W3 m ρ c (Proc.devRef .tc main_arg3) = A3 := by
  show StableHlo.after hostOps1 (W2 m ρ c) (Proc.devRef .tc main_arg3) = _
  after_results_simp
  exact arg3_2 m ρ c
theorem arg4_3 : W3 m ρ c (Proc.devRef .tc main_arg4) = A4 := by
  show StableHlo.after hostOps1 (W2 m ρ c) (Proc.devRef .tc main_arg4) = _
  after_results_simp
  exact arg4_2 m ρ c
theorem arg5_3 : W3 m ρ c (Proc.devRef .tc main_arg5) = A5 := by
  show StableHlo.after hostOps1 (W2 m ρ c) (Proc.devRef .tc main_arg5) = _
  after_results_simp
  exact arg5_2 m ρ c
theorem arg6_3 : W3 m ρ c (Proc.devRef .tc main_arg6) = A6 := by
  show StableHlo.after hostOps1 (W2 m ρ c) (Proc.devRef .tc main_arg6) = _
  after_results_simp
  exact arg6_2 m ρ c

/-! ## After the second region: the first layer -/

theorem v27_4 : W4 m ρ c (Proc.devRef .tc main_v27) = layer1 A0 A1 A2 A5 A6 := by
  refine (W4_arr m ρ c 3).trans ((Layers.final1 (V3 m ρ) c).trans ?_)
  show epiRelu (W3 m ρ c (Proc.devRef .tc main_v25)) (W3 m ρ c (Proc.devRef .tc main_v14)) (W3 m ρ c (Proc.devRef .tc main_v26)) = _
  rw [v25_3 m ρ c, v14_3 m ρ c, v26_3 m ρ c]
  rfl

theorem v10_4 : W4 m ρ c (Proc.devRef .tc main_v10) = col (deg A5) := (W4_of_ne m ρ c main_v10 (by decide)).trans (v10_3 m ρ c)
/-- The in-degree column is an input window of the second region: the region leaves it as it found it. -/
theorem v14_4 : W4 m ρ c (Proc.devRef .tc main_v14) = col (deg A6) :=
  ((W4_arr m ρ c 1).trans (((dat1 (V3 m ρ) c).arrAt_in 1 rfl _).trans (A_eq1 (V3 m ρ) c 1))).trans (v14_3 m ρ c)
theorem arg3_4 : W4 m ρ c (Proc.devRef .tc main_arg3) = A3 := (W4_of_ne m ρ c main_arg3 (by decide)).trans (arg3_3 m ρ c)
theorem arg4_4 : W4 m ρ c (Proc.devRef .tc main_arg4) = A4 := (W4_of_ne m ρ c main_arg4 (by decide)).trans (arg4_3 m ρ c)
theorem arg5_4 : W4 m ρ c (Proc.devRef .tc main_arg5) = A5 := (W4_of_ne m ρ c main_arg5 (by decide)).trans (arg5_3 m ρ c)
theorem arg6_4 : W4 m ρ c (Proc.devRef .tc main_arg6) = A6 := (W4_of_ne m ρ c main_arg6 (by decide)).trans (arg6_3 m ρ c)

/-! ## After the third region -/

theorem v28_5 : W5 m ρ c (Proc.devRef .tc main_v28) = linScale (layer1 A0 A1 A2 A5 A6) A3 (col (deg A5)) := by
  refine (W5_arr m ρ c 3).trans ((Layers.final2 (V4 m ρ) c).trans ?_)
  show linScale (W4 m ρ c (Proc.devRef .tc main_v27)) (W4 m ρ c (Proc.devRef .tc main_arg3)) (W4 m ρ c (Proc.devRef .tc main_v10)) = _
  rw [v27_4 m ρ c, arg3_4 m ρ c, v10_4 m ρ c]

theorem v14_5 : W5 m ρ c (Proc.devRef .tc main_v14) = col (deg A6) := (W5_of_ne m ρ c main_v14 (by decide)).trans (v14_4 m ρ c)
theorem arg4_5 : W5 m ρ c (Proc.devRef .tc main_arg4) = A4 := (W5_of_ne m ρ c main_arg4 (by decide)).trans (arg4_4 m ρ c)
theorem arg5_5 : W5 m ρ c (Proc.devRef .tc main_arg5) = A5 := (W5_of_ne m ρ c main_arg5 (by decide)).trans (arg5_4 m ρ c)
theorem arg6_5 : W5 m ρ c (Proc.devRef .tc main_arg6) = A6 := (W5_of_ne m ρ c main_arg6 (by decide)).trans (arg6_4 m ρ c)

/-! ## After the third host stretch: the second aggregation and the second bias row -/

theorem v38_6 : W6 m ρ c (Proc.devRef .tc main_v38) = agg (linScale (layer1 A0 A1 A2 A5 A6) A3 (col (deg A5))) A5 A6 := by
  show StableHlo.after hostOps3 (W5 m ρ c) (Proc.devRef .tc main_v38) = _
  after_results_simp
  rw [v28_5 m ρ c, arg5_5 m ρ c, arg6_5 m ρ c]
  rfl

theorem v39_6 : W6 m ρ c (Proc.devRef .tc main_v39) = row A4 := by
  show StableHlo.after hostOps3 (W5 m ρ c) (Proc.devRef .tc main_v39) = _
  after_results_simp
  rw [arg4_5 m ρ c]
  exact row_shapeCast_eq_broadcastInDim A4 shapeCasts_S64_S1x64 _

theorem v14_6 : W6 m ρ c (Proc.devRef .tc main_v14) = col (deg A6) := by
  show StableHlo.after hostOps3 (W5 m ρ c) (Proc.devRef .tc main_v14) = _
  after_results_simp
  exact v14_5 m ρ c

/-! ## After the fourth region: the network -/

/-- The result buffer at the last boundary is the network function of the argument arrays as launched. -/
theorem result_eq : W7 m ρ c (Proc.devRef .tc main_v40) = net A0 A1 A2 A3 A4 A5 A6 := by
  refine (W7_arr m ρ c 3).trans ((Layers.final3 (V6 m ρ) c).trans ?_)
  show epi (W6 m ρ c (Proc.devRef .tc main_v38)) (W6 m ρ c (Proc.devRef .tc main_v14)) (W6 m ρ c (Proc.devRef .tc main_v39)) = _
  rw [v38_6 m ρ c, v14_6 m ρ c, v39_6 m ρ c]
  rfl

end Cert.KernelIdeal.Chain

end
-- ==== Proof.Ref.lean ====
import proofs.«125446_j71244917506158_1_alg».proof.Defs
import proofs.«125446_j71244917506158_1_alg».proof.Proof.Gen.ReferenceIdeal.Run
import proofs.«125446_j71244917506158_1_alg».proof.Proof.Graph

/-!
  The reference's result is the network function of its argument arrays: its run's composed term is, operation for
  operation, the host form of the two layers (a dot_general scaled by a doubly broadcast column is `linScale`; a product
  with a broadcast column plus a broadcast row is `epi`; its maximum with the broadcast zero word is `epiRelu`).
-/

set_option maxRecDepth 8192

noncomputable section

namespace Cert.ReferenceIdeal.Net

open Idealize.ShloMosaic Idealize.ShloMosaic.TcCoe Idealize.SL.Sem
open Cert.ReferenceIdeal Cert.ReferenceIdeal.Facts₀ Cert.ReferenceIdeal.Value Cert.Layer Cert.Graph

theorem result_eq (m : (ℓ : Loc nD τ sig) → Buf (Elt Ideal) ℓ) (c : Dev nD) :
    res_main_v53 (F := Ideal) m c = net (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold res_main_v53
  rw [host_linScale dot_S50000x128_S128x64_S50000x64_1_0_0_1_n_n rfl rfl rfl rfl rfl rfl none _ _ _ bcast_S50000x1_S50000x64_0_1]
  rw [host_linScale dot_S50000x64_S64x64_S50000x64_1_0_0_1_n_n rfl rfl rfl rfl rfl rfl none _ _ _ bcast_S50000x1_S50000x64_0_1]
  rw [host_epi _ _ _ bcast_S50000x1_S50000x64_0_1 bcast_S1x64_S50000x64_0_1]
  rw [host_epi _ _ _ bcast_S50000x1_S50000x64_0_1 bcast_S1x64_S50000x64_0_1]
  rw [host_epiRelu _ _ _ bcast_S_S50000x64]
  rfl

end Cert.ReferenceIdeal.Net

end
-- ==== Proof.lean ====
/-
  A two-layer graph convolution on 50000 nodes and 800000 edges: each layer transforms the node features by a dense
  matrix product, scales node p by 1/√(max(out-degree(p), 1)), sums over the edges the source rows onto the destination
  rows, scales node p by 1/√(max(in-degree(p), 1)) and adds a bias; the first layer is then clamped at zero.

  The kernel program computes the dense product and the out-degree scaling of each layer in one pallas_call over five
  row blocks of 10000 nodes, and the in-degree scaling, bias and clamp in another; degrees, gathers and scatter-adds are
  host operations, the same ones the reference applies. Over the extended reals narrowing the matrix unit's operands
  to bf16 is the identity, and entry (p, q) of each kernel's result reads only row p of its row-blocked operands: so each
  pallas_call leaves the whole-array layer function of its operand arrays (Proof/K0 … K3), the result buffer
  followed back through @main's seven segments is the network function of the argument arrays (Proof/KChain), and the
  reference's composed term is the same function (Proof/Ref). No algebraic law beyond the operations' own definitions is
  needed, so finiteness of the inputs is not used.

  The three frame claims are the generated frames (the reference's from its generated run); the ideal pass rewrote
  nothing, so the idealization claim is trivial.
-/
import proofs.«125446_j71244917506158_1_alg».proof.Defs
import proofs.«125446_j71244917506158_1_alg».proof.Proof.Gen.Kernel
import proofs.«125446_j71244917506158_1_alg».proof.Proof.Gen.Kernel.Frame
import proofs.«125446_j71244917506158_1_alg».proof.Proof.Gen.KernelIdeal
import proofs.«125446_j71244917506158_1_alg».proof.Proof.Gen.KernelIdeal.Frame
import proofs.«125446_j71244917506158_1_alg».proof.Proof.Gen.ReferenceIdeal
import proofs.«125446_j71244917506158_1_alg».proof.Proof.Gen.ReferenceIdeal.Run
import proofs.«125446_j71244917506158_1_alg».proof.Proof.Gen.Pre_finite_inputs
import proofs.«125446_j71244917506158_1_alg».proof.Proof.KRun
import proofs.«125446_j71244917506158_1_alg».proof.Proof.KChain
import proofs.«125446_j71244917506158_1_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the network function of the (agreeing) argument arrays in their result buffers. -/
theorem algebraic : Cert.algebraic_KernelIdeal_ReferenceIdeal := by
  intro m ρ m' ρ' _ hagree
  refine ⟨fun c => Cert.Graph.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Chain.result_eq m ρ c), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Net.result_eq m' c]
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
